-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x28x28 : Shape := ⟨4, ![512, 256, 28, 28]⟩
abbrev S_ : Shape := ⟨0, ![]⟩

class Facts : Prop where
  bcast_S_S512x256x28x28 : S_.BroadcastsInDim S512x256x28x28 (![] : Fin 0 → Fin S512x256x28x28.rank)
  reducesTo_S512x256x28x28_S_d0_1_2_3 : S512x256x28x28.ReducesTo [0, 1, 2, 3] S_
  h_S_ : 0 < S_.numel

variable [Facts]

def fn {F : FTy → Type} [FloatOps F] (main_arg0 : FVec F S512x256x28x28 .f32) : IVec S_ 1 :=
  let main_v0 : FVec F S512x256x28x28 .f32 := Host.absf main_arg0
  let main_cst : FVec F S_ .f32 := constant S_ .f32 0x7F800000#32
  let main_v1 : FVec F S512x256x28x28 .f32 := broadcastInDim S512x256x28x28 ![] bcast_S_S512x256x28x28 main_cst
  let main_v2 : IVec S512x256x28x28 1 := cmpf .olt main_v0 main_v1
  let main_c : IVec S_ 1 := constantI S_ 1 1#1
  let main_v3 : IVec S_ 1 := (fun x v => Host.reduce IntOp.andi x v reducesTo_S512x256x28x28_S_d0_1_2_3 h_S_) main_v2 main_c
  main_v3
-- ==== Kernel.lean ====
abbrev S512x256x28x28 : Shape := ⟨4, ![512, 256, 28, 28]⟩
abbrev S131072x28x28 : Shape := ⟨3, ![131072, 28, 28]⟩
abbrev S131072x7x7 : Shape := ⟨3, ![131072, 7, 7]⟩
abbrev S2048x28x28 : Shape := ⟨3, ![2048, 28, 28]⟩
abbrev S2048x7x7 : Shape := ⟨3, ![2048, 7, 7]⟩
abbrev S2048x4x28 : Shape := ⟨3, ![2048, 4, 28]⟩
abbrev S2048x28 : Shape := ⟨2, ![2048, 28]⟩
abbrev S2048x1x28 : Shape := ⟨3, ![2048, 1, 28]⟩
abbrev S2048x7x28 : Shape := ⟨3, ![2048, 7, 28]⟩
abbrev S2048x7x4 : Shape := ⟨3, ![2048, 7, 4]⟩
abbrev S2048x7 : Shape := ⟨2, ![2048, 7]⟩
abbrev S2048x7x1 : Shape := ⟨3, ![2048, 7, 1]⟩
abbrev S512x256x7x7 : Shape := ⟨4, ![512, 256, 7, 7]⟩

abbrev nBuf : Space → Nat
  | .hbm => 4
  | .vmem => 4
  | .smem => 0
  | _ => 0

abbrev bufTy : (tb : Table) → Fin (tcTables nBuf tb) → BufTy
  | .hbm, ⟨0, _⟩ => ⟨S512x256x28x28, .f32⟩
  | .hbm, ⟨1, _⟩ => ⟨S131072x28x28, .f32⟩
  | .hbm, ⟨2, _⟩ => ⟨S131072x7x7, .f32⟩
  | .hbm, ⟨3, _⟩ => ⟨S512x256x7x7, .f32⟩
  | .local _ .vmem, ⟨0, _⟩ => ⟨S2048x28x28, .f32⟩
  | .local _ .vmem, ⟨1, _⟩ => ⟨S2048x28x28, .f32⟩
  | .local _ .vmem, ⟨2, _⟩ => ⟨S2048x7x7, .f32⟩
  | .local _ .vmem, ⟨3, _⟩ => ⟨S2048x7x7, .f32⟩
  | _, _ => ⟨S512x256x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x7x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S512x256x28x28_S131072x28x28 : S512x256x28x28.ShapeCasts S131072x28x28
  inb_S2048x28x28_S2048x28x28_0_0_0 : ∀ a, (![0, 0, 0] : Fin 3 → Nat) a + S2048x28x28.size a ≤ S2048x28x28.size a
  h_S2048x28x28 : 0 < S2048x28x28.numel
  shapeCasts_S2048x28x28_S2048x28x28 : S2048x28x28.ShapeCasts S2048x28x28
  slices_S2048x28x28_o0_0_0_S2048x4x28 : S2048x28x28.Slices ![0, 0, 0] S2048x4x28
  reduces_S2048x4x28_S2048x28 : S2048x4x28.Reduces [1] S2048x28
  shapeCasts_S2048x28_S2048x1x28 : S2048x28.ShapeCasts S2048x1x28
  slices_S2048x28x28_o0_4_0_S2048x4x28 : S2048x28x28.Slices ![0, 4, 0] S2048x4x28
  slices_S2048x28x28_o0_8_0_S2048x4x28 : S2048x28x28.Slices ![0, 8, 0] S2048x4x28
  slices_S2048x28x28_o0_12_0_S2048x4x28 : S2048x28x28.Slices ![0, 12, 0] S2048x4x28
  slices_S2048x28x28_o0_16_0_S2048x4x28 : S2048x28x28.Slices ![0, 16, 0] S2048x4x28
  slices_S2048x28x28_o0_20_0_S2048x4x28 : S2048x28x28.Slices ![0, 20, 0] S2048x4x28
  slices_S2048x28x28_o0_24_0_S2048x4x28 : S2048x28x28.Slices ![0, 24, 0] S2048x4x28
  concatenates_S2048x1x28_S2048x1x28_S2048x1x28_S2048x1x28_S2048x1x28_S2048x1x28_S2048x1x28_S2048x7x28_d1 : Shape.Concatenates [S2048x1x28, S2048x1x28, S2048x1x28, S2048x1x28, S2048x1x28, S2048x1x28, S2048x1x28] S2048x7x28 1
  slices_S2048x7x28_o0_0_0_S2048x7x4 : S2048x7x28.Slices ![0, 0, 0] S2048x7x4
  reduces_S2048x7x4_S2048x7 : S2048x7x4.Reduces [2] S2048x7
  shapeCasts_S2048x7_S2048x7x1 : S2048x7.ShapeCasts S2048x7x1
  slices_S2048x7x28_o0_0_4_S2048x7x4 : S2048x7x28.Slices ![0, 0, 4] S2048x7x4
  slices_S2048x7x28_o0_0_8_S2048x7x4 : S2048x7x28.Slices ![0, 0, 8] S2048x7x4
  slices_S2048x7x28_o0_0_12_S2048x7x4 : S2048x7x28.Slices ![0, 0, 12] S2048x7x4
  slices_S2048x7x28_o0_0_16_S2048x7x4 : S2048x7x28.Slices ![0, 0, 16] S2048x7x4
  slices_S2048x7x28_o0_0_20_S2048x7x4 : S2048x7x28.Slices ![0, 0, 20] S2048x7x4
  slices_S2048x7x28_o0_0_24_S2048x7x4 : S2048x7x28.Slices ![0, 0, 24] S2048x7x4
  concatenates_S2048x7x1_S2048x7x1_S2048x7x1_S2048x7x1_S2048x7x1_S2048x7x1_S2048x7x1_S2048x7x7_d2 : Shape.Concatenates [S2048x7x1, S2048x7x1, S2048x7x1, S2048x7x1, S2048x7x1, S2048x7x1, S2048x7x1] S2048x7x7 2
  inb_S2048x7x7_S2048x7x7_0_0_0 : ∀ a, (![0, 0, 0] : Fin 3 → Nat) a + S2048x7x7.size a ≤ S2048x7x7.size a
  h_S2048x7x7 : 0 < S2048x7x7.numel
  shapeCasts_S131072x7x7_S512x256x7x7 : S131072x7x7.ShapeCasts S512x256x7x7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x28x28.size a ≤ S131072x28x28.size a
  hwx0_0 : ∀ i : grid0.Coords, EltTy.bits .f32 = 32 ∨ (Rect.block (s := S131072x28x28) S2048x28x28.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x7x7.size a ≤ S131072x7x7.size a
  hwx0_1 : ∀ i : grid0.Coords, EltTy.bits .f32 = 32 ∨ (Rect.block (s := S131072x7x7) S2048x7x7.size (cc0_transform_1 i) (hinb0_1 i)).WholeWords (EltTy.packing .f32)

variable [Facts₀]

abbrev win0_0 : Pipeline.Window sig grid0 :=
  Pipeline.Window.ofSpec (Memref.whole main_v0) S2048x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x7x7.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256x28x28 : Shape := ⟨4, ![512, 256, 28, 28]⟩
abbrev S7x4 : Shape := ⟨2, ![7, 4]⟩
abbrev S_ : Shape := ⟨0, ![]⟩
abbrev S7x4x1 : Shape := ⟨3, ![7, 4, 1]⟩
abbrev S512x256x7x4x28 : Shape := ⟨5, ![512, 256, 7, 4, 28]⟩
abbrev S1x1x7x4x1 : Shape := ⟨5, ![1, 1, 7, 4, 1]⟩
abbrev S512x256x7x28 : Shape := ⟨4, ![512, 256, 7, 28]⟩
abbrev S512x256x7x7x4 : Shape := ⟨5, ![512, 256, 7, 7, 4]⟩
abbrev S1x1x1x7x4 : Shape := ⟨5, ![1, 1, 1, 7, 4]⟩
abbrev S512x256x7x7 : Shape := ⟨4, ![512, 256, 7, 7]⟩

abbrev nBuf : Space → Nat
  | .hbm => 37
  | .vmem => 0
  | .smem => 0
  | _ => 0

abbrev bufTy : (tb : Table) → Fin (tcTables nBuf tb) → BufTy
  | .hbm, ⟨0, _⟩ => ⟨S512x256x28x28, .f32⟩
  | .hbm, ⟨1, _⟩ => ⟨S7x4, .i32⟩
  | .hbm, ⟨2, _⟩ => ⟨S7x4, .i1⟩
  | .hbm, ⟨3, _⟩ => ⟨S7x4, .i32⟩
  | .hbm, ⟨4, _⟩ => ⟨S7x4, .i1⟩
  | .hbm, ⟨5, _⟩ => ⟨S_, .i32⟩
  | .hbm, ⟨6, _⟩ => ⟨S7x4, .i32⟩
  | .hbm, ⟨7, _⟩ => ⟨S7x4, .i1⟩
  | .hbm, ⟨8, _⟩ => ⟨S_, .i32⟩
  | .hbm, ⟨9, _⟩ => ⟨S7x4, .i32⟩
  | .hbm, ⟨10, _⟩ => ⟨S7x4, .i32⟩
  | .hbm, ⟨11, _⟩ => ⟨S7x4, .i32⟩
  | .hbm, ⟨12, _⟩ => ⟨S7x4x1, .i32⟩
  | .hbm, ⟨13, _⟩ => ⟨S512x256x7x4x28, .f32⟩
  | .hbm, ⟨14, _⟩ => ⟨S1x1x7x4x1, .i1⟩
  | .hbm, ⟨15, _⟩ => ⟨S_, .f32⟩
  | .hbm, ⟨16, _⟩ => ⟨S512x256x7x4x28, .i1⟩
  | .hbm, ⟨17, _⟩ => ⟨S512x256x7x4x28, .f32⟩
  | .hbm, ⟨18, _⟩ => ⟨S512x256x7x4x28, .f32⟩
  | .hbm, ⟨19, _⟩ => ⟨S_, .f32⟩
  | .hbm, ⟨20, _⟩ => ⟨S512x256x7x28, .f32⟩
  | .hbm, ⟨21, _⟩ => ⟨S_, .i32⟩
  | .hbm, ⟨22, _⟩ => ⟨S7x4, .i32⟩
  | .hbm, ⟨23, _⟩ => ⟨S7x4, .i1⟩
  | .hbm, ⟨24, _⟩ => ⟨S_, .i32⟩
  | .hbm, ⟨25, _⟩ => ⟨S7x4, .i32⟩
  | .hbm, ⟨26, _⟩ => ⟨S7x4, .i32⟩
  | .hbm, ⟨27, _⟩ => ⟨S7x4, .i32⟩
  | .hbm, ⟨28, _⟩ => ⟨S7x4x1, .i32⟩
  | .hbm, ⟨29, _⟩ => ⟨S512x256x7x7x4, .f32⟩
  | .hbm, ⟨30, _⟩ => ⟨S1x1x1x7x4, .i1⟩
  | .hbm, ⟨31, _⟩ => ⟨S_, .f32⟩
  | .hbm, ⟨32, _⟩ => ⟨S512x256x7x7x4, .i1⟩
  | .hbm, ⟨33, _⟩ => ⟨S512x256x7x7x4, .f32⟩
  | .hbm, ⟨34, _⟩ => ⟨S512x256x7x7x4, .f32⟩
  | .hbm, ⟨35, _⟩ => ⟨S_, .f32⟩
  | .hbm, ⟨36, _⟩ => ⟨S512x256x7x7, .f32⟩
  | _, _ => ⟨S512x256x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_c_4 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_cst_5 : Ref sig .tc := ⟨.hbm, 19, rfl⟩
abbrev main_v9 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_8 : Ref sig .tc := ⟨.hbm, 31, rfl⟩
abbrev main_call1_v0 : Ref sig .tc := ⟨.hbm, 32, rfl⟩
abbrev main_call1_v1 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩

abbrev nD : Nat := 1
abbrev τ : Topo := Topo.v7x

variable {F : FTy → Type} [FloatOps F]

class Facts₀ : Prop where
  bcast_S_S7x4 : S_.BroadcastsInDim S7x4 (![] : Fin 0 → Fin S7x4.rank)
  bcast_S7x4_S7x4x1_0_1 : S7x4.BroadcastsInDim S7x4x1 (![0, 1] : Fin 2 → Fin S7x4x1.rank)
  bcast_S7x4_S1x1x7x4x1_2_3 : S7x4.BroadcastsInDim S1x1x7x4x1 (![2, 3] : Fin 2 → Fin S1x1x7x4x1.rank)
  bcast_S1x1x7x4x1_S512x256x7x4x28_0_1_2_3_4 : S1x1x7x4x1.BroadcastsInDim S512x256x7x4x28 (![0, 1, 2, 3, 4] : Fin 5 → Fin S512x256x7x4x28.rank)
  bcast_S_S512x256x7x4x28 : S_.BroadcastsInDim S512x256x7x4x28 (![] : Fin 0 → Fin S512x256x7x4x28.rank)
  reducesTo_S512x256x7x4x28_S512x256x7x28_d3 : S512x256x7x4x28.ReducesTo [3] S512x256x7x28
  h_S_ : 0 < S_.numel
  bcast_S7x4_S1x1x1x7x4_3_4 : S7x4.BroadcastsInDim S1x1x1x7x4 (![3, 4] : Fin 2 → Fin S1x1x1x7x4.rank)
  bcast_S1x1x1x7x4_S512x256x7x7x4_0_1_2_3_4 : S1x1x1x7x4.BroadcastsInDim S512x256x7x7x4 (![0, 1, 2, 3, 4] : Fin 5 → Fin S512x256x7x7x4.rank)
  bcast_S_S512x256x7x7x4 : S_.BroadcastsInDim S512x256x7x7x4 (![] : Fin 0 → Fin S512x256x7x7x4.rank)
  reducesTo_S512x256x7x7x4_S512x256x7x7_d4 : S512x256x7x7x4.ReducesTo [4] S512x256x7x7
  gather_S512x256x28x28_S7x4x1_S512x256x7x4x28_014_2_n_n_2_2_512256128_wf : GatherDims.WF S512x256x28x28 S7x4x1 S512x256x7x4x28 [0, 1, 4] [2] [] [2] [] 2 ![512, 256, 1, 28]
  gather_S512x256x7x28_S7x4x1_S512x256x7x7x4_012_3_n_n_3_2_51225671_wf : GatherDims.WF S512x256x7x28 S7x4x1 S512x256x7x7x4 [0, 1, 2] [3] [] [3] [] 2 ![512, 256, 7, 1]

variable [Facts₀]

def gather_S512x256x28x28_S7x4x1_S512x256x7x4x28_014_2_n_n_2_2_512256128 : GatherDims S512x256x28x28 S7x4x1 S512x256x7x4x28 where
  offsetDims := [0, 1, 4]
  collapsedSliceDims := [2]
  operandBatchingDims := []
  startIndicesBatchingDims := []
  startIndexMap := [2]
  indexVectorDim := 2
  sliceSizes := ![512, 256, 1, 28]
  wf := gather_S512x256x28x28_S7x4x1_S512x256x7x4x28_014_2_n_n_2_2_512256128_wf
def gather_S512x256x7x28_S7x4x1_S512x256x7x7x4_012_3_n_n_3_2_51225671 : GatherDims S512x256x7x28 S7x4x1 S512x256x7x7x4 where
  offsetDims := [0, 1, 2]
  collapsedSliceDims := [3]
  operandBatchingDims := []
  startIndicesBatchingDims := []
  startIndexMap := [3]
  indexVectorDim := 2
  sliceSizes := ![512, 256, 7, 1]
  wf := gather_S512x256x7x28_S7x4x1_S512x256x7x7x4_012_3_n_n_3_2_51225671_wf

class Facts : Prop extends Facts₀ where

variable [Facts]
-- ==== Proof.Pool.lean ====
/-
  Adaptive max pooling of a [512, 256, 28, 28] array down to [512, 256, 7, 7]. Since 28 = 7 · 4 every bin holds exactly
  four rows and four columns, so entry (n, c, o, p) of the result is the maximum over the 4 × 4 window of the entries
  (n, c, 4 o + l', 4 p + l), l', l < 4 — taken over the rows first and over the columns second, each maximum started
  from −∞. The same function on the array with its two leading axes merged, [131072, 28, 28] → [131072, 7, 7], and the
  fact that merging the axes, pooling, and splitting them again is pooling the four-axis array.
-/
import Idealize.ShloMosaic.PureOps.Ideal
import Idealize.ShloMosaic.Lib.ValueIdx
import Idealize.ShloMosaic.Lib.Pipeline.Value

noncomputable section

namespace Cert.Pool

open Idealize.ShloMosaic Idealize.ShloMosaic.ValueIdx

/-- The maximum of four extended reals, started from the value of the pattern of −∞. -/
def max4 (f : Fin 4 → EReal) : EReal :=
  (Finset.univ : Finset (Fin 4)).fold max (Ideal.ofBits .f32 0xFF800000#32) f

/-- Row (or column) `l` of bin `o`: `4 o + l`. -/
def win (o : Fin 7) (l : Fin 4) : Fin 28 := ⟨4 * o.val + l.val, by have := o.isLt; have := l.isLt; omega⟩

theorem win_val (o : Fin 7) (l : Fin 4) : (win o l).val = 4 * o.val + l.val := rfl

/-- The pooled value at (b, o, p) of a three-axis array: over the columns of bin `p`, the maximum over the rows of bin `o`. -/
def poolAt3 (y : FVec Ideal ⟨3, ![131072, 28, 28]⟩ .f32) (b : Fin 131072) (o p : Fin 7) : EReal :=
  max4 fun l => max4 fun l' => y (ix3 b (win o l') (win p l))

/-- The pooled three-axis array. -/
def pool3 (y : FVec Ideal ⟨3, ![131072, 28, 28]⟩ .f32) : FVec Ideal ⟨3, ![131072, 7, 7]⟩ .f32 :=
  fun j => poolAt3 y (j 0) (j 1) (j 2)

/-- The pooled value at (n, c, o, p) of the four-axis array. -/
def poolAt4 (x : FVec Ideal ⟨4, ![512, 256, 28, 28]⟩ .f32) (n : Fin 512) (c : Fin 256) (o p : Fin 7) : EReal :=
  max4 fun l => max4 fun l' => x (ix4 n c (win o l') (win p l))

/-- The pooled four-axis array. -/
def pool4 (x : FVec Ideal ⟨4, ![512, 256, 28, 28]⟩ .f32) : FVec Ideal ⟨4, ![512, 256, 7, 7]⟩ .f32 :=
  fun i => poolAt4 x (i 0) (i 1) (i 2) (i 3)

/-- Image `256 n + c` of the merged leading axis. -/
def img (n : Fin 512) (c : Fin 256) : Fin 131072 := ⟨256 * n.val + c.val, by have := n.isLt; have := c.isLt; omega⟩

/-- Merging the two leading axes, pooling each image, and splitting the axes again is pooling the four-axis array: entry
    (n, c, h, w) of the array is entry (256 n + c, h, w) of the merged one, on both sides of the pooling. -/
theorem split_pool3_merge (x : FVec Ideal ⟨4, ![512, 256, 28, 28]⟩ .f32)
    (h1 : (⟨4, ![512, 256, 28, 28]⟩ : Shape).ShapeCasts ⟨3, ![131072, 28, 28]⟩)
    (h2 : (⟨3, ![131072, 7, 7]⟩ : Shape).ShapeCasts ⟨4, ![512, 256, 7, 7]⟩) :
    shapeCast ⟨4, ![512, 256, 7, 7]⟩ (pool3 (shapeCast ⟨3, ![131072, 28, 28]⟩ x h1)) h2 = pool4 x := by
  funext i
  obtain ⟨n, c, o, p, rfl⟩ : ∃ (n : Fin 512) (c : Fin 256) (o p : Fin 7), i = ix4 n c o p :=
    ⟨i 0, i 1, i 2, i 3, eq_ix4 i⟩
  refine (shapeCast_apply _ h2 (ix4 n c o p) (ix3 (img n c) o p) ?_).trans ?_
  · rw [Shape.rowMajor_val_three, Shape.rowMajor_val_four]
    show ((256 * n.val + c.val) * 7 + o.val) * 7 + p.val = ((n.val * 256 + c.val) * 7 + o.val) * 7 + p.val
    omega
  · show poolAt3 _ (img n c) o p = poolAt4 x n c o p
    unfold poolAt3 poolAt4
    refine congrArg max4 (funext fun l => congrArg max4 (funext fun l' => ?_))
    refine shapeCast_apply x h1 (ix3 (img n c) (win o l') (win p l)) (ix4 n c (win o l') (win p l)) ?_
    rw [Shape.rowMajor_val_three, Shape.rowMajor_val_four]
    show ((n.val * 256 + c.val) * 28 + (win o l').val) * 28 + (win p l).val
      = ((256 * n.val + c.val) * 28 + (win o l').val) * 28 + (win p l).val
    omega

end Cert.Pool

end
-- ==== Proof.KernelBlock.lean ====
/-
  What the pooling kernel's body leaves in its output block, index by index. The body takes a block of 2048 images
  [2048, 28, 28]; for each of the seven row bins it cuts the bin's four rows out, takes their maximum from −∞ and keeps
  it as one row, and lays the seven rows side by side ([2048, 7, 28]); then it does the same to the columns of that
  array ([2048, 7, 7]). So entry (b, o, p) of the block it stores is the maximum over the columns 4 p + l of bin `p`
  of the maximum over the rows 4 o + l' of bin `o` of image b.
-/
import proofs.«146977_j1932735283567_1_alg».proof.Proof.Gen.KernelIdeal.Frame
import proofs.«146977_j1932735283567_1_alg».proof.Proof.Pool
import Idealize.ShloMosaic.PureOps.Ideal.Laws
import Idealize.ShloMosaic.Lib.Pipeline.Value
import Idealize.ShloMosaic.Lib.ValueIdx

noncomputable section

namespace Cert.KernelIdeal.PoolBlock

open Cert.KernelIdeal Cert.KernelIdeal.Gen Cert.Pool Idealize.ShloMosaic Idealize.ShloMosaic.ValueIdx

/-- The four rows of bin `k` lie inside the block, -/
theorem rowSlices : ∀ k : Fin 7, S2048x28x28.Slices ![0, 4 * k.val, 0] S2048x4x28 := by decide
/-- and the four columns of bin `k` inside the row-pooled block. -/
theorem colSlices : ∀ k : Fin 7, S2048x7x28.Slices ![0, 0, 4 * k.val] S2048x7x4 := by decide

/-- The rows of bin `k` of every image, their maximum, as a one-row array. -/
def rowPiece (v : FVec Ideal S2048x28x28 .f32) (k : Fin 7) : FVec Ideal S2048x1x28 .f32 :=
  shapeCast S2048x1x28 (multiReduction .maximumf [1] S2048x28 (extractStridedSlice S2048x4x28 ![0, 4 * k.val, 0] v (rowSlices k))
    0xFF800000#32 reduces_S2048x4x28_S2048x28 (.inl rfl) rfl) shapeCasts_S2048x28_S2048x1x28

/-- The columns of bin `k` of a row-pooled block, their maximum, as a one-column array. -/
def colPiece (u : FVec Ideal S2048x7x28 .f32) (k : Fin 7) : FVec Ideal S2048x7x1 .f32 :=
  shapeCast S2048x7x1 (multiReduction .maximumf [2] S2048x7 (extractStridedSlice S2048x7x4 ![0, 0, 4 * k.val] u (colSlices k))
    0xFF800000#32 reduces_S2048x7x4_S2048x7 (.inl rfl) rfl) shapeCasts_S2048x7_S2048x7x1

/-- Entry (b, ·, w) of bin `k`'s row: the maximum over the bin's four rows of column w of image b. -/
theorem rowPiece_apply (v : FVec Ideal S2048x28x28 .f32) (k : Fin 7) (b : Fin 2048) (w : Fin 28) :
    rowPiece v k (ix3 b 0 w) = max4 fun l' => v (ix3 b (win k l') w) := by
  unfold rowPiece
  refine (shapeCast_apply _ _ (ix3 b 0 w) (ix2 b w) ?_).trans ?_
  · rw [Shape.rowMajor_val_two, Shape.rowMajor_val_three]
    show b.val * 28 + w.val = (b.val * 1 + 0) * 28 + w.val
    omega
  · refine (Ideal.multiReduction_maximumf_single _ _ reduces_S2048x4x28_S2048x28 _ _ (ix2 b w)).trans ?_
    show max4 (fun l' : Fin 4 => extractStridedSlice S2048x4x28 ![0, 4 * k.val, 0] v (rowSlices k)
      (reduces_S2048x4x28_S2048x28.lift (ix2 b w) l')) = _
    refine congrArg max4 (funext fun l' => ?_)
    refine extractStridedSlice_apply _ v _ _ (ix3 b (win k l') w) fun a => ?_
    match a with
    | ⟨0, _⟩ => show b.val = 0 + b.val; omega
    | ⟨1, _⟩ => show 4 * k.val + l'.val = 4 * k.val + l'.val; rfl
    | ⟨2, _⟩ => show w.val = 0 + w.val; omega

/-- Entry (b, o, ·) of bin `k`'s column: the maximum over the bin's four columns of row o of image b. -/
theorem colPiece_apply (u : FVec Ideal S2048x7x28 .f32) (k : Fin 7) (b : Fin 2048) (o : Fin 7) :
    colPiece u k (ix3 b o 0) = max4 fun l => u (ix3 b o (win k l)) := by
  unfold colPiece
  refine (shapeCast_apply _ _ (ix3 b o 0) (ix2 b o) ?_).trans ?_
  · rw [Shape.rowMajor_val_two, Shape.rowMajor_val_three]
    show b.val * 7 + o.val = (b.val * 7 + o.val) * 1 + 0
    omega
  · refine (Ideal.multiReduction_maximumf_single _ _ reduces_S2048x7x4_S2048x7 _ _ (ix2 b o)).trans ?_
    show max4 (fun l : Fin 4 => extractStridedSlice S2048x7x4 ![0, 0, 4 * k.val] u (colSlices k)
      (reduces_S2048x7x4_S2048x7.lift (ix2 b o) l)) = _
    refine congrArg max4 (funext fun l => ?_)
    refine extractStridedSlice_apply _ u _ _ (ix3 b o (win k l)) fun a => ?_
    match a with
    | ⟨0, _⟩ => show b.val = 0 + b.val; omega
    | ⟨1, _⟩ => show o.val = 0 + o.val; omega
    | ⟨2, _⟩ => show 4 * k.val + l.val = 4 * k.val + l.val; rfl

set_option maxRecDepth 65536 in
/-- The row-pooled block is the seven bins' rows laid side by side. -/
theorem rows_eq (x0 : Vec Ideal S2048x28x28 .f32) :
    k0_pay2 (F := Ideal) x0 = concatenate S2048x7x28 1
      (List.ofFn fun k : Fin 7 => (⟨S2048x1x28, rowPiece (shapeCast S2048x28x28 x0 shapeCasts_S2048x28x28_S2048x28x28) k⟩ : (s : Shape) × (s.Idx → EReal)))
      concatenates_S2048x1x28_S2048x1x28_S2048x1x28_S2048x1x28_S2048x1x28_S2048x1x28_S2048x1x28_S2048x7x28_d1 := rfl

/-- Entry (b, o, w) of the row-pooled block: the maximum over the rows of bin `o` of column w of image b. -/
theorem rows_apply (x0 : Vec Ideal S2048x28x28 .f32) (b : Fin 2048) (o : Fin 7) (w : Fin 28) :
    k0_pay2 (F := Ideal) x0 (ix3 b o w) = max4 fun l' => x0 (ix3 b (win o l') w) := by
  rw [rows_eq, shapeCast_self]
  refine (concatenate_ofFn_unit_apply (t := S2048x7x28) (s₁ := S2048x1x28) 1 (fun k => rowPiece x0 k) _ rfl (by rfl) (ix3 b o w) o rfl (ix3 b 0 w) fun a ha => ?_).trans (rowPiece_apply x0 o b w)
  match a with
  | ⟨0, _⟩ => rfl
  | ⟨1, _⟩ => exact absurd rfl ha
  | ⟨2, _⟩ => rfl

set_option maxRecDepth 65536 in
/-- The stored block is the seven bins' columns of the row-pooled block laid side by side. -/
theorem stored_eq (x0 : Vec Ideal S2048x28x28 .f32) :
    k0_pay1 (F := Ideal) (k0_pay3 x0) (k0_pay4 x0) (k0_pay5 x0) (k0_pay6 x0) (k0_pay7 x0) (k0_pay8 x0) (k0_pay9 x0)
      = concatenate S2048x7x7 2
        (List.ofFn fun k : Fin 7 => (⟨S2048x7x1, colPiece (k0_pay2 x0) k⟩ : (s : Shape) × (s.Idx → EReal)))
        concatenates_S2048x7x1_S2048x7x1_S2048x7x1_S2048x7x1_S2048x7x1_S2048x7x1_S2048x7x1_S2048x7x7_d2 := rfl

theorem hz3 : (![0, 0, 0] : Fin 3 → Nat) = fun _ => 0 := funext fun a => by fin_cases a <;> rfl

/-- WHAT THE BODY LEAVES in the output block, at (b, o, p): the pooled value of image b of the input block. -/
theorem out_apply (x0 : Vec Ideal S2048x28x28 .f32) (b : Fin 2048) (o p : Fin 7) :
    out0_1 (F := Ideal) x0 (ix3 b o p) = max4 fun l => max4 fun l' => x0 (ix3 b (win o l') (win p l)) := by
  unfold out0_1
  rw [View.canon_unit_zero hz3]
  simp only [View.ld_unit_zero (S := S2048x28x28) hz3]
  rw [stored_eq]
  refine (concatenate_ofFn_unit_apply (t := S2048x7x7) (s₁ := S2048x7x1) 2 (fun k => colPiece (k0_pay2 x0) k) _ rfl (by rfl) (ix3 b o p) p rfl (ix3 b o 0) fun a ha => ?_).trans ?_
  · match a with
    | ⟨0, _⟩ => rfl
    | ⟨1, _⟩ => rfl
    | ⟨2, _⟩ => exact absurd rfl ha
  · rw [colPiece_apply]
    exact congrArg max4 (funext fun l => rows_apply x0 b o (win p l))

end Cert.KernelIdeal.PoolBlock

end
-- ==== Proof.KernelArray.lean ====
/-
  The pooling kernel's run read as a value. The program merges the two leading axes of its argument ([131072, 28, 28]),
  runs the body over 64 blocks of 2048 images — point t reads images 2048 t … 2048 t + 2047 and writes back the same
  images of the result —, and splits the leading axis of the result again. Entry (b, h, w) of point t's input block is
  entry (2048 t + b, h, w) of the merged array, so what point t writes back is block t of the pooled merged array; the 64
  blocks cover the result array, which therefore ends at the pooled merged array, and the program's result is that array
  with its leading axis split: the pooled four-axis argument.
-/
import proofs.«146977_j1932735283567_1_alg».proof.Proof.KernelBlock
import Idealize.ShloMosaic.Lib.StableHlo.Run

noncomputable section

namespace Cert.KernelIdeal.PoolValue

open Cert.KernelIdeal Cert.KernelIdeal.Gen Cert.KernelIdeal.PoolBlock Cert.Pool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The merged array as the region finds it. -/
abbrev merged (c : Dev nD) : FVec Ideal S131072x28x28 .f32 := V m c main_v0

/-- It is the argument with its two leading axes merged. -/
theorem merged_eq (c : Dev nD) :
    merged m c = shapeCast S131072x28x28 (m ((c : Thread nD τ).loc main_arg0)) shapeCasts_S512x256x28x28_S131072x28x28 := by
  show StableHlo.after hostOps0 (fun b => m (c, b)) (Proc.devRef .tc main_v0) = _
  after_results
  rfl

/-- The index maps over the grid: point t's blocks are block t along the leading axis, block 0 along the others. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Entry (b, h, w) of point t's input block is entry (2048 t + b, h, w) of the merged array. -/
theorem iblk_apply (c : Dev nD) (t : Fin cfg0.N) (b : Fin 2048) (h w : Fin 28) (k : Fin 131072)
    (hk : k.val = 2048 * t.val + b.val) :
    (iblk m c 0 t : Vec Ideal S2048x28x28 .f32) (ix3 b h w) = merged m c (ix3 k h w) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t 0 * 2048 + 1 * b.val = k.val; rw [e0, hk]; omega
  | ⟨1, _⟩ => show win0_0.index t 1 * 28 + 1 * h.val = h.val; rw [e1]; omega
  | ⟨2, _⟩ => show win0_0.index t 2 * 28 + 1 * w.val = w.val; rw [e2]; omega

/-- WHAT POINT t WRITES BACK is block t of the pooled merged array. -/
theorem flushed_eq (c : Dev nD) (t : Fin cfg0.N) :
    (dats m 0 c).flushed 1 t = ((cfg0.win 1).blk t).view.read (Elt Ideal) (pool3 (merged m c)) := by
  show (cfg0.win 1).cut (grid0.coords t) ((dats m 0 c).after 1 t) = _
  rw [after0_1]
  obtain ⟨-, -, -, e0, e1, e2⟩ := idx_facts t
  have ht : t.val < 64 := Nat.lt_of_lt_of_eq t.isLt (show cfg0.N = 64 from N_0)
  funext j
  obtain ⟨b, o, p, rfl⟩ : ∃ (b : Fin 2048) (o p : Fin 7), j = ix3 b o p := ⟨j 0, j 1, j 2, eq_ix3 j⟩
  show out0_1 (iblk m c 0 t) (ix3 b o p) = pool3 (merged m c) (((cfg0.win 1).blk t).view.emb (ix3 b o p))
  have hemb : ((cfg0.win 1).blk t).view.emb (ix3 b o p) = ix3 (⟨2048 * t.val + b.val, by have := b.isLt; omega⟩ : Fin 131072) o p := by
    funext a
    apply Fin.ext
    match a with
    | ⟨0, _⟩ => show win0_1.index t 0 * 2048 + 1 * b.val = 2048 * t.val + b.val; rw [e0]; omega
    | ⟨1, _⟩ => show win0_1.index t 1 * 7 + 1 * o.val = o.val; rw [e1]; omega
    | ⟨2, _⟩ => show win0_1.index t 2 * 7 + 1 * p.val = p.val; rw [e2]; omega
  rw [hemb]
  refine (out_apply (iblk m c 0 t) b o p).trans ?_
  show _ = poolAt3 (merged m c) (⟨2048 * t.val + b.val, _⟩ : Fin 131072) o p
  unfold poolAt3
  exact congrArg max4 (funext fun l => congrArg max4 (funext fun l' => iblk_apply m c t b (win o l') (win p l) _ rfl))

/-- An index of the result array is in point t's block iff each coordinate is in the block's range on its axis. -/
theorem mem_blk (t : Fin cfg0.N) (i : S131072x7x7.Idx) :
    i ∈ ((cfg0.win 1).blk t).view.set ↔ ∀ a : Fin 3, win0_1.index t a * S2048x7x7.size a ≤ (i a).val
      ∧ (i a).val < win0_1.index t a * S2048x7x7.size a + S2048x7x7.size a := by
  show i ∈ ((View.whole main_v1).slice (win0_1.rect t)).set ↔ _
  rw [View.set_slice_whole, Rect.mem_set_unit]
  exact Iff.rfl

/-- The 64 blocks cover the result array: image r lies in block r / 2048. -/
theorem cover (i : S131072x7x7.Idx) : ∃ t : Fin cfg0.N, (cfg0.win 1).flush t = true ∧ i ∈ ((cfg0.win 1).blk t).view.set := by
  have h0 : (i 0).val < 131072 := (i 0).isLt
  have h1 : (i 1).val < 7 := (i 1).isLt
  have h2 : (i 2).val < 7 := (i 2).isLt
  let t : Fin cfg0.N := ⟨(i 0).val / 2048, by rw [show cfg0.N = 64 from N_0]; omega⟩
  obtain ⟨-, -, -, e0, e1, e2⟩ := idx_facts t
  refine ⟨t, flush0_1 t, ?_⟩
  rw [mem_blk]
  intro a
  match a with
  | ⟨0, _⟩ =>
    show win0_1.index t 0 * 2048 ≤ (i 0).val ∧ (i 0).val < win0_1.index t 0 * 2048 + 2048
    rw [e0]; show (i 0).val / 2048 * 2048 ≤ (i 0).val ∧ (i 0).val < (i 0).val / 2048 * 2048 + 2048; omega
  | ⟨1, _⟩ =>
    show win0_1.index t 1 * 7 ≤ (i 1).val ∧ (i 1).val < win0_1.index t 1 * 7 + 7
    rw [e1]; omega
  | ⟨2, _⟩ =>
    show win0_1.index t 2 * 7 ≤ (i 2).val ∧ (i 2).val < win0_1.index t 2 * 7 + 7
    rw [e2]; omega

/-- THE RESULT ARRAY after the run: the pooled merged array. -/
theorem final (c : Dev nD) : (dats m 0 c).arrAt 1 cfg0.N = pool3 (merged m c) :=
  (dats m 0 c).arrAt_eq_of_cover 1 (pool3 (merged m c)) (fun t _ => flushed_eq m c t) cover

/-- What the line after the region leaves in the program's result: the result array with its leading axis split. -/
theorem tail_eq (c : Dev nD) :
    Pipeline.afterTail₀ cfgs (dats m) 0 (V0 m) [hostOps1] c main_v2
      = shapeCast S512x256x7x7 (pool3 (merged m c)) shapeCasts_S131072x7x7_S512x256x7x7 := by
  unfold Pipeline.afterTail₀
  show StableHlo.after hostOps1 _ (Proc.devRef .tc main_v2) = _
  after_results
  have e := (Pipeline.withArrays_arr spec0 launch0.win.arr_inj c (V0 m c) (fun w => (dats m 0 c).arrAt w cfg0.N) 1).trans (final m c)
  exact congrArg (fun v : FVec Ideal S131072x7x7 .f32 => shapeCast S512x256x7x7 v shapeCasts_S131072x7x7_S512x256x7x7) e

/-- THE RUN, READ: every weakly fair execution ends with the program's result at the pooled argument and the argument
    unchanged. -/
theorem run : θ_run defs (onTc (τ := τ) (main (F := Ideal))) ⟨m, fun _ => 0, ρ⟩ fun r => ∀ c : Dev nD,
      r.2.mem ((c.tc : Thread nD τ).loc main_v2) = pool4 (m ((c.tc : Thread nD τ).loc main_arg0))
      ∧ r.2.mem ((c.tc : Thread nD τ).loc main_arg0) = m ((c.tc : Thread nD τ).loc main_arg0) :=
  (θ_run defs _ _).mono (fun _ h c =>
    ⟨(((h c).2 main_v2 (Pipeline.mem_restRefs_of main_v2 (by decide) (by decide))).trans (tail_eq m c)).trans
        ((congrArg (fun v => shapeCast S512x256x7x7 (pool3 v) shapeCasts_S131072x7x7_S512x256x7x7) (merged_eq m c)).trans
          (split_pool3_merge _ _ _)),
      ((h c).2 main_arg0 (Pipeline.mem_restRefs_of main_arg0 (by decide) (by decide))).trans (W_main_arg0 m (dats m) c)⟩)
    (run_main m ρ)

end Cert.KernelIdeal.PoolValue

end
-- ==== Proof.RefRun.lean ====
/-
  The reference program's @main read back as a straight line of host operations, the two calls of the outlined
  `where` unfolded at their sites: the bin tables (a row-major literal, wrapped where negative, one trailing unit
  axis added), the gather of each bin's four rows, the select under the all-true mask against the most negative
  finite float, the maximum over the four rows from −∞; then the same over the columns of the row-pooled array.
  Every weakly fair execution ends with the result buffer at that composition of the argument array (`refTerm`),
  the argument unchanged.
-/
import proofs.«146977_j1932735283567_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty-six operations in order; each `where` is three (the mask broadcast to the full shape, the fill
    value broadcast, the select). -/
abbrev ops : List (HloOp τ sig (Elt F)) :=
  [ nullary main_c (fun i => lit0 (S7x4.rowMajor i)),
    nullary main_c_0 (constantI S7x4 1 1#1),
    nullary main_c_1 (fun i => lit1 (S7x4.rowMajor i)),
    nullary main_c_2 (constantI S7x4 1 1#1),
    nullary main_c_3 (constantI S_ 32 0#32),
    unary main_c_3 main_v0 (broadcastInDim S7x4 ![] bcast_S_S7x4 : (⟨S_, .i32⟩ : BufTy).Contents (Elt F) → (⟨S7x4, .i32⟩ : BufTy).Contents (Elt F)),
    binary main_c main_v0 main_v1 (cmpi .slt : (⟨S7x4, .i32⟩ : BufTy).Contents (Elt F) → (⟨S7x4, .i32⟩ : BufTy).Contents (Elt F) → (⟨S7x4, .i1⟩ : BufTy).Contents (Elt F)),
    nullary main_c_4 (constantI S_ 32 28#32),
    unary main_c_4 main_v2 (broadcastInDim S7x4 ![] bcast_S_S7x4 : (⟨S_, .i32⟩ : BufTy).Contents (Elt F) → (⟨S7x4, .i32⟩ : BufTy).Contents (Elt F)),
    binary main_c main_v2 main_v3 (addi : (⟨S7x4, .i32⟩ : BufTy).Contents (Elt F) → (⟨S7x4, .i32⟩ : BufTy).Contents (Elt F) → (⟨S7x4, .i32⟩ : BufTy).Contents (Elt F)),
    ternary main_v1 main_v3 main_c main_v4 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v4 main_v5 (broadcastInDim S7x4x1 ![0, 1] bcast_S7x4_S7x4x1_0_1 : (⟨S7x4, .i32⟩ : BufTy).Contents (Elt F) → (⟨S7x4x1, .i32⟩ : BufTy).Contents (Elt F)),
    binary main_arg0 main_v5 main_v6 ((fun x i => Host.gather gather_S512x256x28x28_S7x4x1_S512x256x7x4x28_014_2_n_n_2_2_512256128 x i) : (⟨S512x256x28x28, .f32⟩ : BufTy).Contents (Elt F) → (⟨S7x4x1, .i32⟩ : BufTy).Contents (Elt F) → (⟨S512x256x7x4x28, .f32⟩ : BufTy).Contents (Elt F)),
    unary main_c_0 main_v7 (broadcastInDim S1x1x7x4x1 ![2, 3] bcast_S7x4_S1x1x7x4x1_2_3 : (⟨S7x4, .i1⟩ : BufTy).Contents (Elt F) → (⟨S1x1x7x4x1, .i1⟩ : BufTy).Contents (Elt F)),
    nullary main_cst (constant S_ .f32 0xFF7FFFFF#32),
    TRef.unary (.of main_v7 : TRef sig ⟨S1x1x7x4x1, .i1⟩) main_call0.v0 (broadcastInDim S512x256x7x4x28 ![0, 1, 2, 3, 4] bcast_S1x1x7x4x1_S512x256x7x4x28_0_1_2_3_4),
    TRef.unary (.of main_cst : TRef sig ⟨S_, .f32⟩) main_call0.v1 (broadcastInDim S512x256x7x4x28 ![] bcast_S_S512x256x7x4x28),
    TRef.ternary main_call0.v0 (.of main_v6 : TRef sig ⟨S512x256x7x4x28, .f32⟩) main_call0.v1 main_call0.v2 select,
    nullary main_cst_5 (constant S_ .f32 0xFF800000#32),
    binary main_v8 main_cst_5 main_v9 ((fun x v => Host.reduce FloatOps.maximumf x v reducesTo_S512x256x7x4x28_S512x256x7x28_d3 h_S_) : (⟨S512x256x7x4x28, .f32⟩ : BufTy).Contents (Elt F) → (⟨S_, .f32⟩ : BufTy).Contents (Elt F) → (⟨S512x256x7x28, .f32⟩ : BufTy).Contents (Elt F)),
    nullary main_c_6 (constantI S_ 32 0#32),
    unary main_c_6 main_v10 (broadcastInDim S7x4 ![] bcast_S_S7x4 : (⟨S_, .i32⟩ : BufTy).Contents (Elt F) → (⟨S7x4, .i32⟩ : BufTy).Contents (Elt F)),
    binary main_c_1 main_v10 main_v11 (cmpi .slt : (⟨S7x4, .i32⟩ : BufTy).Contents (Elt F) → (⟨S7x4, .i32⟩ : BufTy).Contents (Elt F) → (⟨S7x4, .i1⟩ : BufTy).Contents (Elt F)),
    nullary main_c_7 (constantI S_ 32 28#32),
    unary main_c_7 main_v12 (broadcastInDim S7x4 ![] bcast_S_S7x4 : (⟨S_, .i32⟩ : BufTy).Contents (Elt F) → (⟨S7x4, .i32⟩ : BufTy).Contents (Elt F)),
    binary main_c_1 main_v12 main_v13 (addi : (⟨S7x4, .i32⟩ : BufTy).Contents (Elt F) → (⟨S7x4, .i32⟩ : BufTy).Contents (Elt F) → (⟨S7x4, .i32⟩ : BufTy).Contents (Elt F)),
    ternary main_v11 main_v13 main_c_1 main_v14 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v14 main_v15 (broadcastInDim S7x4x1 ![0, 1] bcast_S7x4_S7x4x1_0_1 : (⟨S7x4, .i32⟩ : BufTy).Contents (Elt F) → (⟨S7x4x1, .i32⟩ : BufTy).Contents (Elt F)),
    binary main_v9 main_v15 main_v16 ((fun x i => Host.gather gather_S512x256x7x28_S7x4x1_S512x256x7x7x4_012_3_n_n_3_2_51225671 x i) : (⟨S512x256x7x28, .f32⟩ : BufTy).Contents (Elt F) → (⟨S7x4x1, .i32⟩ : BufTy).Contents (Elt F) → (⟨S512x256x7x7x4, .f32⟩ : BufTy).Contents (Elt F)),
    unary main_c_2 main_v17 (broadcastInDim S1x1x1x7x4 ![3, 4] bcast_S7x4_S1x1x1x7x4_3_4 : (⟨S7x4, .i1⟩ : BufTy).Contents (Elt F) → (⟨S1x1x1x7x4, .i1⟩ : BufTy).Contents (Elt F)),
    nullary main_cst_8 (constant S_ .f32 0xFF7FFFFF#32),
    TRef.unary (.of main_v17 : TRef sig ⟨S1x1x1x7x4, .i1⟩) main_call1.v0 (broadcastInDim S512x256x7x7x4 ![0, 1, 2, 3, 4] bcast_S1x1x1x7x4_S512x256x7x7x4_0_1_2_3_4),
    TRef.unary (.of main_cst_8 : TRef sig ⟨S_, .f32⟩) main_call1.v1 (broadcastInDim S512x256x7x7x4 ![] bcast_S_S512x256x7x7x4),
    TRef.ternary main_call1.v0 (.of main_v16 : TRef sig ⟨S512x256x7x7x4, .f32⟩) main_call1.v1 main_call1.v2 select,
    nullary main_cst_9 (constant S_ .f32 0xFF800000#32),
    binary main_v18 main_cst_9 main_v19 ((fun x v => Host.reduce FloatOps.maximumf x v reducesTo_S512x256x7x7x4_S512x256x7x7_d4 h_S_) : (⟨S512x256x7x7x4, .f32⟩ : BufTy).Contents (Elt F) → (⟨S_, .f32⟩ : BufTy).Contents (Elt F) → (⟨S512x256x7x7, .f32⟩ : BufTy).Contents (Elt F)) ]

set_option maxRecDepth 2048 in
/-- @main is that straight line: the two `where` bodies unfolded at their calls, the sequencing reassociated. -/
theorem main_eq (c : Dev nD) : main (F := F) c = seq ops := by
  simp only [main, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., nullary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., nullary_bufs_sub .., unary_bufs_sub .., unary_bufs_sub .., ternary_bufs_sub ..,
    nullary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    unary_bufs_sub .., ternary_bufs_sub .., nullary_bufs_sub .., binary_bufs_sub ..⟩

/-- The same thirty-six operations with every buffer named directly: a call's typed references are these buffers, and
    the transport of contents along a typed reference's type equation is the identity. -/
abbrev opsPlain : List (HloOp τ sig (Elt F)) :=
  [ nullary main_c (fun i => lit0 (S7x4.rowMajor i)),
    nullary main_c_0 (constantI S7x4 1 1#1),
    nullary main_c_1 (fun i => lit1 (S7x4.rowMajor i)),
    nullary main_c_2 (constantI S7x4 1 1#1),
    nullary main_c_3 (constantI S_ 32 0#32),
    unary main_c_3 main_v0 (broadcastInDim S7x4 ![] bcast_S_S7x4 : (⟨S_, .i32⟩ : BufTy).Contents (Elt F) → (⟨S7x4, .i32⟩ : BufTy).Contents (Elt F)),
    binary main_c main_v0 main_v1 (cmpi .slt : (⟨S7x4, .i32⟩ : BufTy).Contents (Elt F) → (⟨S7x4, .i32⟩ : BufTy).Contents (Elt F) → (⟨S7x4, .i1⟩ : BufTy).Contents (Elt F)),
    nullary main_c_4 (constantI S_ 32 28#32),
    unary main_c_4 main_v2 (broadcastInDim S7x4 ![] bcast_S_S7x4 : (⟨S_, .i32⟩ : BufTy).Contents (Elt F) → (⟨S7x4, .i32⟩ : BufTy).Contents (Elt F)),
    binary main_c main_v2 main_v3 (addi : (⟨S7x4, .i32⟩ : BufTy).Contents (Elt F) → (⟨S7x4, .i32⟩ : BufTy).Contents (Elt F) → (⟨S7x4, .i32⟩ : BufTy).Contents (Elt F)),
    ternary main_v1 main_v3 main_c main_v4 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v4 main_v5 (broadcastInDim S7x4x1 ![0, 1] bcast_S7x4_S7x4x1_0_1 : (⟨S7x4, .i32⟩ : BufTy).Contents (Elt F) → (⟨S7x4x1, .i32⟩ : BufTy).Contents (Elt F)),
    binary main_arg0 main_v5 main_v6 ((fun x i => Host.gather gather_S512x256x28x28_S7x4x1_S512x256x7x4x28_014_2_n_n_2_2_512256128 x i) : (⟨S512x256x28x28, .f32⟩ : BufTy).Contents (Elt F) → (⟨S7x4x1, .i32⟩ : BufTy).Contents (Elt F) → (⟨S512x256x7x4x28, .f32⟩ : BufTy).Contents (Elt F)),
    unary main_c_0 main_v7 (broadcastInDim S1x1x7x4x1 ![2, 3] bcast_S7x4_S1x1x7x4x1_2_3 : (⟨S7x4, .i1⟩ : BufTy).Contents (Elt F) → (⟨S1x1x7x4x1, .i1⟩ : BufTy).Contents (Elt F)),
    nullary main_cst (constant S_ .f32 0xFF7FFFFF#32),
    unary main_v7 main_call0_v0 (broadcastInDim S512x256x7x4x28 ![0, 1, 2, 3, 4] bcast_S1x1x7x4x1_S512x256x7x4x28_0_1_2_3_4 : (⟨S1x1x7x4x1, .i1⟩ : BufTy).Contents (Elt F) → (⟨S512x256x7x4x28, .i1⟩ : BufTy).Contents (Elt F)),
    unary main_cst main_call0_v1 (broadcastInDim S512x256x7x4x28 ![] bcast_S_S512x256x7x4x28 : (⟨S_, .f32⟩ : BufTy).Contents (Elt F) → (⟨S512x256x7x4x28, .f32⟩ : BufTy).Contents (Elt F)),
    ternary main_call0_v0 main_v6 main_call0_v1 main_v8 (select : (⟨S512x256x7x4x28, .i1⟩ : BufTy).Contents (Elt F) → (⟨S512x256x7x4x28, .f32⟩ : BufTy).Contents (Elt F) → (⟨S512x256x7x4x28, .f32⟩ : BufTy).Contents (Elt F) → (⟨S512x256x7x4x28, .f32⟩ : BufTy).Contents (Elt F)),
    nullary main_cst_5 (constant S_ .f32 0xFF800000#32),
    binary main_v8 main_cst_5 main_v9 ((fun x v => Host.reduce FloatOps.maximumf x v reducesTo_S512x256x7x4x28_S512x256x7x28_d3 h_S_) : (⟨S512x256x7x4x28, .f32⟩ : BufTy).Contents (Elt F) → (⟨S_, .f32⟩ : BufTy).Contents (Elt F) → (⟨S512x256x7x28, .f32⟩ : BufTy).Contents (Elt F)),
    nullary main_c_6 (constantI S_ 32 0#32),
    unary main_c_6 main_v10 (broadcastInDim S7x4 ![] bcast_S_S7x4 : (⟨S_, .i32⟩ : BufTy).Contents (Elt F) → (⟨S7x4, .i32⟩ : BufTy).Contents (Elt F)),
    binary main_c_1 main_v10 main_v11 (cmpi .slt : (⟨S7x4, .i32⟩ : BufTy).Contents (Elt F) → (⟨S7x4, .i32⟩ : BufTy).Contents (Elt F) → (⟨S7x4, .i1⟩ : BufTy).Contents (Elt F)),
    nullary main_c_7 (constantI S_ 32 28#32),
    unary main_c_7 main_v12 (broadcastInDim S7x4 ![] bcast_S_S7x4 : (⟨S_, .i32⟩ : BufTy).Contents (Elt F) → (⟨S7x4, .i32⟩ : BufTy).Contents (Elt F)),
    binary main_c_1 main_v12 main_v13 (addi : (⟨S7x4, .i32⟩ : BufTy).Contents (Elt F) → (⟨S7x4, .i32⟩ : BufTy).Contents (Elt F) → (⟨S7x4, .i32⟩ : BufTy).Contents (Elt F)),
    ternary main_v11 main_v13 main_c_1 main_v14 (select : (⟨S7x4, .i1⟩ : BufTy).Contents (Elt F) → (⟨S7x4, .i32⟩ : BufTy).Contents (Elt F) → (⟨S7x4, .i32⟩ : BufTy).Contents (Elt F) → (⟨S7x4, .i32⟩ : BufTy).Contents (Elt F)),
    unary main_v14 main_v15 (broadcastInDim S7x4x1 ![0, 1] bcast_S7x4_S7x4x1_0_1 : (⟨S7x4, .i32⟩ : BufTy).Contents (Elt F) → (⟨S7x4x1, .i32⟩ : BufTy).Contents (Elt F)),
    binary main_v9 main_v15 main_v16 ((fun x i => Host.gather gather_S512x256x7x28_S7x4x1_S512x256x7x7x4_012_3_n_n_3_2_51225671 x i) : (⟨S512x256x7x28, .f32⟩ : BufTy).Contents (Elt F) → (⟨S7x4x1, .i32⟩ : BufTy).Contents (Elt F) → (⟨S512x256x7x7x4, .f32⟩ : BufTy).Contents (Elt F)),
    unary main_c_2 main_v17 (broadcastInDim S1x1x1x7x4 ![3, 4] bcast_S7x4_S1x1x1x7x4_3_4 : (⟨S7x4, .i1⟩ : BufTy).Contents (Elt F) → (⟨S1x1x1x7x4, .i1⟩ : BufTy).Contents (Elt F)),
    nullary main_cst_8 (constant S_ .f32 0xFF7FFFFF#32),
    unary main_v17 main_call1_v0 (broadcastInDim S512x256x7x7x4 ![0, 1, 2, 3, 4] bcast_S1x1x1x7x4_S512x256x7x7x4_0_1_2_3_4 : (⟨S1x1x1x7x4, .i1⟩ : BufTy).Contents (Elt F) → (⟨S512x256x7x7x4, .i1⟩ : BufTy).Contents (Elt F)),
    unary main_cst_8 main_call1_v1 (broadcastInDim S512x256x7x7x4 ![] bcast_S_S512x256x7x7x4 : (⟨S_, .f32⟩ : BufTy).Contents (Elt F) → (⟨S512x256x7x7x4, .f32⟩ : BufTy).Contents (Elt F)),
    ternary main_call1_v0 main_v16 main_call1_v1 main_v18 (select : (⟨S512x256x7x7x4, .i1⟩ : BufTy).Contents (Elt F) → (⟨S512x256x7x7x4, .f32⟩ : BufTy).Contents (Elt F) → (⟨S512x256x7x7x4, .f32⟩ : BufTy).Contents (Elt F) → (⟨S512x256x7x7x4, .f32⟩ : BufTy).Contents (Elt F)),
    nullary main_cst_9 (constant S_ .f32 0xFF800000#32),
    binary main_v18 main_cst_9 main_v19 ((fun x v => Host.reduce FloatOps.maximumf x v reducesTo_S512x256x7x7x4_S512x256x7x7_d4 h_S_) : (⟨S512x256x7x7x4, .f32⟩ : BufTy).Contents (Elt F) → (⟨S_, .f32⟩ : BufTy).Contents (Elt F) → (⟨S512x256x7x7, .f32⟩ : BufTy).Contents (Elt F)) ]

theorem ops_eq : (ops : List (HloOp τ sig (Elt F))) = opsPlain := rfl

/-! ## The composed term -/

/-- A bin table as the gather reads it: the row-major literal `tab`, 28 added where an entry is negative, a trailing
    unit axis added. -/
def binTable (tab : Fin 28 → BitVec 32) : IVec S7x4x1 32 :=
  broadcastInDim S7x4x1 ![0, 1] bcast_S7x4_S7x4x1_0_1
    (select (cmpi .slt (fun i => tab (S7x4.rowMajor i)) (broadcastInDim S7x4 ![] bcast_S_S7x4 (constantI S_ 32 0#32)))
      (addi (fun i => tab (S7x4.rowMajor i)) (broadcastInDim S7x4 ![] bcast_S_S7x4 (constantI S_ 32 28#32)))
      (fun i => tab (S7x4.rowMajor i)))

/-- The rows pooled: each bin's four rows gathered, kept under the all-true mask, their maximum from −∞. -/
def rowsPooled (x : FVec F S512x256x28x28 .f32) : FVec F S512x256x7x28 .f32 :=
  Host.reduce FloatOps.maximumf
    (select (broadcastInDim S512x256x7x4x28 ![0, 1, 2, 3, 4] bcast_S1x1x7x4x1_S512x256x7x4x28_0_1_2_3_4
        (broadcastInDim S1x1x7x4x1 ![2, 3] bcast_S7x4_S1x1x7x4x1_2_3 (constantI S7x4 1 1#1)))
      (Host.gather gather_S512x256x28x28_S7x4x1_S512x256x7x4x28_014_2_n_n_2_2_512256128 x (binTable lit0))
      (broadcastInDim S512x256x7x4x28 ![] bcast_S_S512x256x7x4x28 (constant S_ .f32 0xFF7FFFFF#32)))
    (constant S_ .f32 0xFF800000#32) reducesTo_S512x256x7x4x28_S512x256x7x28_d3 h_S_

/-- The columns of a row-pooled array pooled the same way. -/
def colsPooled (y : FVec F S512x256x7x28 .f32) : FVec F S512x256x7x7 .f32 :=
  Host.reduce FloatOps.maximumf
    (select (broadcastInDim S512x256x7x7x4 ![0, 1, 2, 3, 4] bcast_S1x1x1x7x4_S512x256x7x7x4_0_1_2_3_4
        (broadcastInDim S1x1x1x7x4 ![3, 4] bcast_S7x4_S1x1x1x7x4_3_4 (constantI S7x4 1 1#1)))
      (Host.gather gather_S512x256x7x28_S7x4x1_S512x256x7x7x4_012_3_n_n_3_2_51225671 y (binTable lit1))
      (broadcastInDim S512x256x7x7x4 ![] bcast_S_S512x256x7x7x4 (constant S_ .f32 0xFF7FFFFF#32)))
    (constant S_ .f32 0xFF800000#32) reducesTo_S512x256x7x7x4_S512x256x7x7_d4 h_S_

/-- The reference's result as a function of its argument. -/
def refTerm (x : FVec F S512x256x28x28 .f32) : FVec F S512x256x7x7 .f32 := colsPooled (rowsPooled x)

set_option maxRecDepth 8192 in
set_option maxHeartbeats 1000000 in
/-- The fold of the operations at the result buffer is `refTerm` of the argument's contents: each operation's result read
    at its own buffer and passed over at every other. -/
theorem out_eq (V : Valuation τ sig (Elt F)) :
    after ops V (main_v19 : DevRef τ sig) = refTerm (V (main_arg0 : DevRef τ sig)) := by
  rw [ops_eq]
  after_results
  rfl

set_option maxRecDepth 8192 in
set_option maxHeartbeats 1000000 in
/-- No operation writes the argument. -/
theorem arg_eq (V : Valuation τ sig (Elt F)) :
    after ops V (main_arg0 : DevRef τ sig) = V (main_arg0 : DevRef τ sig) := by
  rw [ops_eq]
  after_results

/-- On every device, from any memory with zero counters: every weakly fair execution of @main terminates with the result
    buffer at `refTerm` of the argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v19).trans (out_eq _), (h c main_arg0).trans (arg_eq _)⟩)
    (run_seq scopedRefs_eq scopedSems_eq defs main (fun _ => ops) main_eq (fun _ => ops_sub) m ρ)

end Cert.ReferenceIdeal.RefRun

end
-- ==== Proof.RefValue.lean ====
/-
  The reference's composed term at the ideal values is the pooling function, index by index. The bin tables hold
  4 o + l at (o, l), all inside [0, 27], so the wrap of negative entries and the gather's clamp leave them as they are; the
  mask is all true, so each select keeps the gathered entry and the fill value is never read; a host maximum over one axis from −∞
  is the maximum over that axis's four coordinates. Hence the rows pooled at (n, c, o, w) are the maximum over the four rows
  of bin o of column w, and the columns of that array pooled at (n, c, o, p) the maximum over the four columns of bin p.
-/
import proofs.«146977_j1932735283567_1_alg».proof.Proof.RefRun
import proofs.«146977_j1932735283567_1_alg».proof.Proof.Pool
import Idealize.ShloMosaic.PureOps.Ideal.Laws
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Cert.Pool Idealize.ShloMosaic Idealize.ShloMosaic.ValueIdx

/-! ## The bin tables -/

/-- An entry of the literal tables, wrapped where negative and read as a signed number, is its position. -/
theorem wrap_lit0 : ∀ k : Fin 28, (Scalar.select (IntOp.cmpi .slt (lit0 k) 0#32) (IntOp.addi (lit0 k) 28#32) (lit0 k)).toInt.toNat = k.val := by
  decide
theorem wrap_lit1 : ∀ k : Fin 28, (Scalar.select (IntOp.cmpi .slt (lit1 k) 0#32) (IntOp.addi (lit1 k) 28#32) (lit1 k)).toInt.toNat = k.val := by
  decide

/-- The table the gather reads, at (o, l, ·): the wrapped entry at row-major position 4 o + l. -/
theorem binTable_apply (tab : Fin 28 → BitVec 32) (o : Fin 7) (l : Fin 4) :
    binTable tab (ix3 o l 0)
      = Scalar.select (IntOp.cmpi .slt (tab (win o l)) 0#32) (IntOp.addi (tab (win o l)) 28#32) (tab (win o l)) := by
  have hp : S7x4.rowMajor (ix2 o l) = win o l := Fin.ext (by
    rw [Shape.rowMajor_val_two]; show o.val * 4 + l.val = 4 * o.val + l.val; omega)
  unfold binTable
  refine (broadcastInDim_apply _ _ _ (ix3 o l 0) (ix2 o l) fun a => ?_).trans ?_
  · match a with
    | ⟨0, _⟩ => rfl
    | ⟨1, _⟩ => rfl
  · show Scalar.select (IntOp.cmpi .slt (tab (S7x4.rowMajor (ix2 o l))) 0#32) (IntOp.addi (tab (S7x4.rowMajor (ix2 o l))) 28#32)
      (tab (S7x4.rowMajor (ix2 o l))) = _
    rw [hp]

theorem binTable0 (o : Fin 7) (l : Fin 4) : (binTable lit0 (ix3 o l 0)).toInt.toNat = (win o l).val := by
  rw [binTable_apply]; exact wrap_lit0 (win o l)
theorem binTable1 (o : Fin 7) (l : Fin 4) : (binTable lit1 (ix3 o l 0)).toInt.toNat = (win o l).val := by
  rw [binTable_apply]; exact wrap_lit1 (win o l)

/-! ## The gathers at an index -/

local notation "gRows" => gather_S512x256x28x28_S7x4x1_S512x256x7x4x28_014_2_n_n_2_2_512256128
local notation "gCols" => gather_S512x256x7x28_S7x4x1_S512x256x7x7x4_012_3_n_n_3_2_51225671

/-- The gather of rows at (n, c, o, l, w): the array at (n, c, r, w), r the start index at (o, l) read signed and clamped to [0, 27]. -/
theorem gatherRows_apply (x : FVec Ideal S512x256x28x28 .f32) (idx : IVec S7x4x1 32) (n : Fin 512) (c : Fin 256) (o : Fin 7) (l : Fin 4) (w : Fin 28) :
    Host.gather gRows x idx (ix5 n c o l w)
      = x (ix4 n c ⟨min (idx (ix3 o l 0)).toInt.toNat 27, by omega⟩ w) := by
  unfold Host.gather
  refine congrArg x (funext fun a => Fin.ext ?_)
  have hsi : GatherDims.siIdx gRows (ix5 n c o l w) ⟨List.idxOf (2 : Fin 4) (GatherDims.startIndexMap gRows),
      List.idxOf_lt_length_iff.2 (List.mem_singleton.mpr rfl)⟩ = ix3 o l 0 := by
    funext b; refine Fin.ext ?_
    match b with
    | ⟨0, _⟩ => rfl
    | ⟨1, _⟩ => rfl
    | ⟨2, _⟩ => rfl
  match a with
  | ⟨0, _⟩ =>
    show GatherDims.start gRows (ix5 n c o l w) idx 0 + GatherDims.batchCoord gRows (ix5 n c o l w) 0 + GatherDims.offCoord gRows (ix5 n c o l w) 0 = n.val
    have hs : GatherDims.start gRows (ix5 n c o l w) idx 0 = 0 := by unfold GatherDims.start; exact dif_neg (by decide)
    have ho : GatherDims.offCoord gRows (ix5 n c o l w) 0 = n.val := by unfold GatherDims.offCoord; rw [dif_pos (by decide)]; rfl
    rw [GatherDims.batchCoord_eq_zero _ _ _ List.not_mem_nil, hs, ho]
    omega
  | ⟨1, _⟩ =>
    show GatherDims.start gRows (ix5 n c o l w) idx 1 + GatherDims.batchCoord gRows (ix5 n c o l w) 1 + GatherDims.offCoord gRows (ix5 n c o l w) 1 = c.val
    have hs : GatherDims.start gRows (ix5 n c o l w) idx 1 = 0 := by unfold GatherDims.start; exact dif_neg (by decide)
    have ho : GatherDims.offCoord gRows (ix5 n c o l w) 1 = c.val := by unfold GatherDims.offCoord; rw [dif_pos (by decide)]; rfl
    rw [GatherDims.batchCoord_eq_zero _ _ _ List.not_mem_nil, hs, ho]
    omega
  | ⟨2, _⟩ =>
    show GatherDims.start gRows (ix5 n c o l w) idx 2 + GatherDims.batchCoord gRows (ix5 n c o l w) 2 + GatherDims.offCoord gRows (ix5 n c o l w) 2 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 4) ∈ GatherDims.startIndexMap gRows from List.mem_singleton.mpr rfl), hsi]
    rfl
  | ⟨3, _⟩ =>
    show GatherDims.start gRows (ix5 n c o l w) idx 3 + GatherDims.batchCoord gRows (ix5 n c o l w) 3 + GatherDims.offCoord gRows (ix5 n c o l w) 3 = w.val
    have hs : GatherDims.start gRows (ix5 n c o l w) idx 3 = 0 := by unfold GatherDims.start; exact dif_neg (by decide)
    have ho : GatherDims.offCoord gRows (ix5 n c o l w) 3 = w.val := by unfold GatherDims.offCoord; rw [dif_pos (by decide)]; rfl
    rw [GatherDims.batchCoord_eq_zero _ _ _ List.not_mem_nil, hs, ho]
    omega

/-- The gather of columns at (n, c, o, p, l): the array at (n, c, o, r), r the start index at (p, l) read signed and clamped to [0, 27]. -/
theorem gatherCols_apply (y : FVec Ideal S512x256x7x28 .f32) (idx : IVec S7x4x1 32) (n : Fin 512) (c : Fin 256) (o p : Fin 7) (l : Fin 4) :
    Host.gather gCols y idx (ix5 n c o p l)
      = y (ix4 n c o ⟨min (idx (ix3 p l 0)).toInt.toNat 27, by omega⟩) := by
  unfold Host.gather
  refine congrArg y (funext fun a => Fin.ext ?_)
  have hsi : GatherDims.siIdx gCols (ix5 n c o p l) ⟨List.idxOf (3 : Fin 4) (GatherDims.startIndexMap gCols),
      List.idxOf_lt_length_iff.2 (List.mem_singleton.mpr rfl)⟩ = ix3 p l 0 := by
    funext b; refine Fin.ext ?_
    match b with
    | ⟨0, _⟩ => rfl
    | ⟨1, _⟩ => rfl
    | ⟨2, _⟩ => rfl
  match a with
  | ⟨0, _⟩ =>
    show GatherDims.start gCols (ix5 n c o p l) idx 0 + GatherDims.batchCoord gCols (ix5 n c o p l) 0 + GatherDims.offCoord gCols (ix5 n c o p l) 0 = n.val
    have hs : GatherDims.start gCols (ix5 n c o p l) idx 0 = 0 := by unfold GatherDims.start; exact dif_neg (by decide)
    have ho : GatherDims.offCoord gCols (ix5 n c o p l) 0 = n.val := by unfold GatherDims.offCoord; rw [dif_pos (by decide)]; rfl
    rw [GatherDims.batchCoord_eq_zero _ _ _ List.not_mem_nil, hs, ho]
    omega
  | ⟨1, _⟩ =>
    show GatherDims.start gCols (ix5 n c o p l) idx 1 + GatherDims.batchCoord gCols (ix5 n c o p l) 1 + GatherDims.offCoord gCols (ix5 n c o p l) 1 = c.val
    have hs : GatherDims.start gCols (ix5 n c o p l) idx 1 = 0 := by unfold GatherDims.start; exact dif_neg (by decide)
    have ho : GatherDims.offCoord gCols (ix5 n c o p l) 1 = c.val := by unfold GatherDims.offCoord; rw [dif_pos (by decide)]; rfl
    rw [GatherDims.batchCoord_eq_zero _ _ _ List.not_mem_nil, hs, ho]
    omega
  | ⟨2, _⟩ =>
    show GatherDims.start gCols (ix5 n c o p l) idx 2 + GatherDims.batchCoord gCols (ix5 n c o p l) 2 + GatherDims.offCoord gCols (ix5 n c o p l) 2 = o.val
    have hs : GatherDims.start gCols (ix5 n c o p l) idx 2 = 0 := by unfold GatherDims.start; exact dif_neg (by decide)
    have ho : GatherDims.offCoord gCols (ix5 n c o p l) 2 = o.val := by unfold GatherDims.offCoord; rw [dif_pos (by decide)]; rfl
    rw [GatherDims.batchCoord_eq_zero _ _ _ List.not_mem_nil, hs, ho]
    omega
  | ⟨3, _⟩ =>
    show GatherDims.start gCols (ix5 n c o p l) idx 3 + GatherDims.batchCoord gCols (ix5 n c o p l) 3 + GatherDims.offCoord gCols (ix5 n c o p l) 3 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (3 : Fin 4) ∈ GatherDims.startIndexMap gCols from List.mem_singleton.mpr rfl), hsi]
    rfl

/-! ## The two poolings at an index -/

theorem redRows : S512x256x7x4x28.Reduces [3] S512x256x7x28 := by decide
theorem redCols : S512x256x7x7x4.Reduces [4] S512x256x7x7 := by decide

/-- The rows pooled, at (n, c, o, w): the maximum over the four rows of bin o of column w. -/
theorem rowsPooled_apply (x : FVec Ideal S512x256x28x28 .f32) (n : Fin 512) (c : Fin 256) (o : Fin 7) (w : Fin 28) :
    rowsPooled (F := Ideal) x (ix4 n c o w) = max4 fun l' => x (ix4 n c (win o l') w) := by
  unfold rowsPooled
  refine (Host.reduce_eq_fold_single _ _ _ _ redRows _ (ix4 n c o w)).trans ?_
  show max4 (fun l' : Fin 4 => Scalar.select (1#1 : BitVec 1)
      (Host.gather gRows x (binTable lit0) (redRows.lift (ix4 n c o w) l')) (Ideal.ofBits .f32 0xFF7FFFFF#32)) = _
  refine congrArg max4 (funext fun l' => ?_)
  rw [select_one]
  have hl : redRows.lift (ix4 n c o w) l' = ix5 n c o l' w := by
    funext a; refine Fin.ext ?_
    match a with
    | ⟨0, _⟩ => rfl
    | ⟨1, _⟩ => rfl
    | ⟨2, _⟩ => rfl
    | ⟨3, _⟩ => rfl
    | ⟨4, _⟩ => rfl
  rw [hl, gatherRows_apply]
  refine congrArg x (congrArg (fun r => ix4 n c r w) (Fin.ext ?_))
  show min (binTable lit0 (ix3 o l' 0)).toInt.toNat 27 = (win o l').val
  rw [binTable0]
  have := (win o l').isLt
  omega

/-- The columns pooled, at (n, c, o, p): the maximum over the four columns of bin p of row o. -/
theorem colsPooled_apply (y : FVec Ideal S512x256x7x28 .f32) (n : Fin 512) (c : Fin 256) (o p : Fin 7) :
    colsPooled (F := Ideal) y (ix4 n c o p) = max4 fun l => y (ix4 n c o (win p l)) := by
  unfold colsPooled
  refine (Host.reduce_eq_fold_single _ _ _ _ redCols _ (ix4 n c o p)).trans ?_
  show max4 (fun l : Fin 4 => Scalar.select (1#1 : BitVec 1)
      (Host.gather gCols y (binTable lit1) (redCols.lift (ix4 n c o p) l)) (Ideal.ofBits .f32 0xFF7FFFFF#32)) = _
  refine congrArg max4 (funext fun l => ?_)
  rw [select_one]
  have hl : redCols.lift (ix4 n c o p) l = ix5 n c o p l := by
    funext a; refine Fin.ext ?_
    match a with
    | ⟨0, _⟩ => rfl
    | ⟨1, _⟩ => rfl
    | ⟨2, _⟩ => rfl
    | ⟨3, _⟩ => rfl
    | ⟨4, _⟩ => rfl
  rw [hl, gatherCols_apply]
  refine congrArg y (congrArg (fun r => ix4 n c o r) (Fin.ext ?_))
  show min (binTable lit1 (ix3 p l 0)).toInt.toNat 27 = (win p l).val
  rw [binTable1]
  have := (win p l).isLt
  omega

/-- THE REFERENCE'S RESULT is the pooled array. -/
theorem refTerm_eq (x : FVec Ideal S512x256x28x28 .f32) : refTerm (F := Ideal) x = pool4 x := by
  funext i
  obtain ⟨n, c, o, p, rfl⟩ : ∃ (n : Fin 512) (c : Fin 256) (o p : Fin 7), i = ix4 n c o p := ⟨i 0, i 1, i 2, i 3, eq_ix4 i⟩
  show colsPooled (rowsPooled x) (ix4 n c o p) = poolAt4 x n c o p
  rw [colsPooled_apply]
  unfold poolAt4
  exact congrArg max4 (funext fun l => rowsPooled_apply x n c o (win p l))

end Cert.ReferenceIdeal.RefValue

end
-- ==== Proof.lean ====
/-
  Adaptive max pooling [512, 256, 28, 28] → [512, 256, 7, 7], a Pallas kernel against its jnp reference, over the extended reals.
  Both programs compute, at (n, c, o, p), the maximum over the four columns 4 p + l of bin p of the maximum over the four
  rows 4 o + l' of bin o, every maximum started from −∞ (`Cert.Pool.pool4`): the kernel by slicing each bin out of a block
  of 2048 images and reducing it, over 64 blocks of the array with its leading axes merged; the reference by gathering each
  bin's rows (then columns) through a literal table of the indices 4 o + l, selecting under an all-true mask, and
  reducing. No law of the extended reals beyond the two sides being the same nested maxima is needed, so the finiteness of
  the inputs is never used. The ideal pass rewrote nothing, so `preserves` is trivial; the kernel's frames are the
  generated ones, and the reference's frame is its run with the result dropped.
-/
import proofs.«146977_j1932735283567_1_alg».proof.Defs
import proofs.«146977_j1932735283567_1_alg».proof.Proof.Gen.Kernel
import proofs.«146977_j1932735283567_1_alg».proof.Proof.Gen.Kernel.Skeleton
import proofs.«146977_j1932735283567_1_alg».proof.Proof.Gen.Kernel.Launch
import proofs.«146977_j1932735283567_1_alg».proof.Proof.Gen.Kernel.Points
import proofs.«146977_j1932735283567_1_alg».proof.Proof.Gen.Kernel.Frame
import proofs.«146977_j1932735283567_1_alg».proof.Proof.Gen.KernelIdeal
import proofs.«146977_j1932735283567_1_alg».proof.Proof.Gen.KernelIdeal.Skeleton
import proofs.«146977_j1932735283567_1_alg».proof.Proof.Gen.KernelIdeal.Launch
import proofs.«146977_j1932735283567_1_alg».proof.Proof.Gen.KernelIdeal.Points
import proofs.«146977_j1932735283567_1_alg».proof.Proof.Gen.KernelIdeal.Frame
import proofs.«146977_j1932735283567_1_alg».proof.Proof.Gen.ReferenceIdeal
import proofs.«146977_j1932735283567_1_alg».proof.Proof.Gen.Pre_finite_inputs
import proofs.«146977_j1932735283567_1_alg».proof.Proof.KernelArray
import proofs.«146977_j1932735283567_1_alg».proof.Proof.RefValue
import Idealize.ShloMosaic.Adequacy
import Idealize.ShloMosaic.Init

noncomputable section

namespace Cert.Proof

open Idealize.ShloMosaic Idealize.SL.Sem

/-- The word-level kernel runs and keeps its argument: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its argument: its run, the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the argument both programs end with the pooled argument. -/
theorem algebraic : Cert.algebraic_KernelIdeal_ReferenceIdeal := by
  intro m ρ m' ρ' _ hagree
  refine ⟨fun c => Cert.Pool.pool4 (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.refTerm_eq _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
